-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x1024 : Shape := ⟨2, ![131072, 1024]⟩
abbrev S131072x21 : Shape := ⟨2, ![131072, 21]⟩
abbrev S21x1024 : Shape := ⟨2, ![21, 1024]⟩
abbrev S21 : Shape := ⟨1, ![21]⟩
abbrev S_ : Shape := ⟨0, ![]⟩

class Facts : Prop where
  bcast_S_S131072x1024 : S_.BroadcastsInDim S131072x1024 (![] : Fin 0 → Fin S131072x1024.rank)
  reducesTo_S131072x1024_S_d0_1 : S131072x1024.ReducesTo [0, 1] S_
  h_S_ : 0 < S_.numel
  bcast_S_S131072x21 : S_.BroadcastsInDim S131072x21 (![] : Fin 0 → Fin S131072x21.rank)
  reducesTo_S131072x21_S_d0_1 : S131072x21.ReducesTo [0, 1] S_
  bcast_S_S21x1024 : S_.BroadcastsInDim S21x1024 (![] : Fin 0 → Fin S21x1024.rank)
  reducesTo_S21x1024_S_d0_1 : S21x1024.ReducesTo [0, 1] S_
  bcast_S_S21 : S_.BroadcastsInDim S21 (![] : Fin 0 → Fin S21.rank)
  reducesTo_S21_S_d0 : S21.ReducesTo [0] S_

variable [Facts]

def fn_part1 {F : FTy → Type} [FloatOps F] (main_v13 : IVec S_ 1) (main_v16 : IVec S21 1) : IVec S_ 1 :=
  let main_c_5 : IVec S_ 1 := constantI S_ 1 1#1
  let main_v17 : IVec S_ 1 := (fun x v => Host.reduce IntOp.andi x v reducesTo_S21_S_d0 h_S_) main_v16 main_c_5
  let main_v18 : IVec S_ 1 := andi main_v13 main_v17
  main_v18

def fn {F : FTy → Type} [FloatOps F] (main_arg0 : FVec F S131072x1024 .f32) (main_arg1 : FVec F S131072x21 .f32) (main_arg2 : FVec F S21x1024 .f32) (main_arg3 : FVec F S21 .f32) : IVec S_ 1 :=
  let main_v0 : FVec F S131072x1024 .f32 := Host.absf main_arg0
  let main_cst : FVec F S_ .f32 := constant S_ .f32 0x7F800000#32
  let main_v1 : FVec F S131072x1024 .f32 := broadcastInDim S131072x1024 ![] bcast_S_S131072x1024 main_cst
  let main_v2 : IVec S131072x1024 1 := cmpf .olt main_v0 main_v1
  let main_c : IVec S_ 1 := constantI S_ 1 1#1
  let main_v3 : IVec S_ 1 := (fun x v => Host.reduce IntOp.andi x v reducesTo_S131072x1024_S_d0_1 h_S_) main_v2 main_c
  let main_v4 : FVec F S131072x21 .f32 := Host.absf main_arg1
  let main_cst_0 : FVec F S_ .f32 := constant S_ .f32 0x7F800000#32
  let main_v5 : FVec F S131072x21 .f32 := broadcastInDim S131072x21 ![] bcast_S_S131072x21 main_cst_0
  let main_v6 : IVec S131072x21 1 := cmpf .olt main_v4 main_v5
  let main_c_1 : IVec S_ 1 := constantI S_ 1 1#1
  let main_v7 : IVec S_ 1 := (fun x v => Host.reduce IntOp.andi x v reducesTo_S131072x21_S_d0_1 h_S_) main_v6 main_c_1
  let main_v8 : IVec S_ 1 := andi main_v3 main_v7
  let main_v9 : FVec F S21x1024 .f32 := Host.absf main_arg2
  let main_cst_2 : FVec F S_ .f32 := constant S_ .f32 0x7F800000#32
  let main_v10 : FVec F S21x1024 .f32 := broadcastInDim S21x1024 ![] bcast_S_S21x1024 main_cst_2
  let main_v11 : IVec S21x1024 1 := cmpf .olt main_v9 main_v10
  let main_c_3 : IVec S_ 1 := constantI S_ 1 1#1
  let main_v12 : IVec S_ 1 := (fun x v => Host.reduce IntOp.andi x v reducesTo_S21x1024_S_d0_1 h_S_) main_v11 main_c_3
  let main_v13 : IVec S_ 1 := andi main_v8 main_v12
  let main_v14 : FVec F S21 .f32 := Host.absf main_arg3
  let main_cst_4 : FVec F S_ .f32 := constant S_ .f32 0x7F800000#32
  let main_v15 : FVec F S21 .f32 := broadcastInDim S21 ![] bcast_S_S21 main_cst_4
  let main_v16 : IVec S21 1 := cmpf .olt main_v14 main_v15
  fn_part1 (F := F) main_v13 main_v16
-- ==== Kernel.lean ====
abbrev S131072x1024 : Shape := ⟨2, ![131072, 1024]⟩
abbrev S131072x21 : Shape := ⟨2, ![131072, 21]⟩
abbrev S21x1024 : Shape := ⟨2, ![21, 1024]⟩
abbrev S21 : Shape := ⟨1, ![21]⟩
abbrev S1024x21 : Shape := ⟨2, ![1024, 21]⟩
abbrev S1x21 : Shape := ⟨2, ![1, 21]⟩
abbrev S131072 : Shape := ⟨1, ![131072]⟩
abbrev S2048x1024 : Shape := ⟨2, ![2048, 1024]⟩
abbrev S2048x21 : Shape := ⟨2, ![2048, 21]⟩
abbrev S2048 : Shape := ⟨1, ![2048]⟩

abbrev nBuf : Space → Nat
  | .hbm => 9
  | .vmem => 10
  | .smem => 0
  | _ => 0

abbrev bufTy : (tb : Table) → Fin (tcTables nBuf tb) → BufTy
  | .hbm, ⟨0, _⟩ => ⟨S131072x1024, .f32⟩
  | .hbm, ⟨1, _⟩ => ⟨S131072x21, .f32⟩
  | .hbm, ⟨2, _⟩ => ⟨S21x1024, .f32⟩
  | .hbm, ⟨3, _⟩ => ⟨S21, .f32⟩
  | .hbm, ⟨4, _⟩ => ⟨S1024x21, .f32⟩
  | .hbm, ⟨5, _⟩ => ⟨S1024x21, .bf16⟩
  | .hbm, ⟨6, _⟩ => ⟨S1x21, .f32⟩
  | .hbm, ⟨7, _⟩ => ⟨S131072, .f32⟩
  | .hbm, ⟨8, _⟩ => ⟨S131072x21, .f32⟩
  | .local _ .vmem, ⟨0, _⟩ => ⟨S2048x1024, .f32⟩
  | .local _ .vmem, ⟨1, _⟩ => ⟨S2048x1024, .f32⟩
  | .local _ .vmem, ⟨2, _⟩ => ⟨S1024x21, .bf16⟩
  | .local _ .vmem, ⟨3, _⟩ => ⟨S1x21, .f32⟩
  | .local _ .vmem, ⟨4, _⟩ => ⟨S2048x21, .f32⟩
  | .local _ .vmem, ⟨5, _⟩ => ⟨S2048x21, .f32⟩
  | .local _ .vmem, ⟨6, _⟩ => ⟨S2048, .f32⟩
  | .local _ .vmem, ⟨7, _⟩ => ⟨S2048, .f32⟩
  | .local _ .vmem, ⟨8, _⟩ => ⟨S2048x21, .f32⟩
  | .local _ .vmem, ⟨9, _⟩ => ⟨S2048x21, .f32⟩
  | _, _ => ⟨S131072x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x21 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x21 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x21 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x21 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S21x1024_S1024x21_1_0 : S21x1024.Transposes [1, 0] S1024x21
  bitsLt_bf16_f32 : FTy.bits .bf16 < FTy.bits .f32
  shapeCasts_S21_S1x21 : S21.ShapeCasts S1x21
  inb_S2048x1024_S2048x1024_0_0 : ∀ a, (![0, 0] : Fin 2 → Nat) a + S2048x1024.size a ≤ S2048x1024.size a
  h_S2048x1024 : 0 < S2048x1024.numel
  inb_S1024x21_S1024x21_0_0 : ∀ a, (![0, 0] : Fin 2 → Nat) a + S1024x21.size a ≤ S1024x21.size a
  h_S1024x21 : 0 < S1024x21.numel
  shapeCasts_S1024x21_S1024x21 : S1024x21.ShapeCasts S1024x21
  inb_S1x21_S1x21_0_0 : ∀ a, (![0, 0] : Fin 2 → Nat) a + S1x21.size a ≤ S1x21.size a
  h_S1x21 : 0 < S1x21.numel
  shapeCasts_S1x21_S1x21 : S1x21.ShapeCasts S1x21
  broadcasts_S1x21_S2048x21 : S1x21.Broadcasts S2048x21
  inb_S2048x21_S2048x21_0_0 : ∀ a, (![0, 0] : Fin 2 → Nat) a + S2048x21.size a ≤ S2048x21.size a
  h_S2048x21 : 0 < S2048x21.numel
  reduces_S2048x21_S2048 : S2048x21.Reduces [1] S2048
  inb_S2048_S2048_0 : ∀ a, (![0] : Fin 1 → Nat) a + S2048.size a ≤ S2048.size a
  h_S2048 : 0 < S2048.numel
  dot_S2048x1024_S1024x21_S2048x21_1_0_0_1_n_n_wf : DotDims.WF S2048x1024 S1024x21 S2048x21 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S131072x1024.size a
  hwx0_0 : ∀ i : grid0.Coords, EltTy.bits .f32 = 32 ∨ (Rect.block (s := S131072x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x21.size a ≤ S1024x21.size a
  hwx0_1 : ∀ i : grid0.Coords, EltTy.bits .bf16 = 32 ∨ (Rect.block (s := S1024x21) S1024x21.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x21.size a ≤ S1x21.size a
  hwx0_2 : ∀ i : grid0.Coords, EltTy.bits .f32 = 32 ∨ (Rect.block (s := S1x21) S1x21.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x21.size a ≤ S131072x21.size a
  hwx0_3 : ∀ i : grid0.Coords, EltTy.bits .f32 = 32 ∨ (Rect.block (s := S131072x21) S2048x21.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048.size a ≤ S131072.size a
  hwx0_4 : ∀ i : grid0.Coords, EltTy.bits .f32 = 32 ∨ (Rect.block (s := S131072) S2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x21.size a ≤ S131072x21.size a
  hwx0_5 : ∀ i : grid0.Coords, EltTy.bits .f32 = 32 ∨ (Rect.block (s := S131072x21) S2048x21.size (cc0_transform_5 i) (hinb0_5 i)).WholeWords (EltTy.packing .f32)

variable [Facts₀]

def dot_S2048x1024_S1024x21_S2048x21_1_0_0_1_n_n : DotDims S2048x1024 S1024x21 S2048x21 where
  lhsContracting := [1]
  rhsContracting := [0]
  lhsNonContracting := [0]
  rhsNonContracting := [1]
  lhsBatch := []
  rhsBatch := []
  wf := dot_S2048x1024_S1024x21_S2048x21_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x21.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x21.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S2048x21.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S2048x21.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S131072x1024 : Shape := ⟨2, ![131072, 1024]⟩
abbrev S131072x21 : Shape := ⟨2, ![131072, 21]⟩
abbrev S21x1024 : Shape := ⟨2, ![21, 1024]⟩
abbrev S21 : Shape := ⟨1, ![21]⟩
abbrev S1x21 : Shape := ⟨2, ![1, 21]⟩
abbrev S_ : Shape := ⟨0, ![]⟩
abbrev S131072 : Shape := ⟨1, ![131072]⟩

abbrev nBuf : Space → Nat
  | .hbm => 11
  | .vmem => 0
  | .smem => 0
  | _ => 0

abbrev bufTy : (tb : Table) → Fin (tcTables nBuf tb) → BufTy
  | .hbm, ⟨0, _⟩ => ⟨S131072x1024, .f32⟩
  | .hbm, ⟨1, _⟩ => ⟨S131072x21, .f32⟩
  | .hbm, ⟨2, _⟩ => ⟨S21x1024, .f32⟩
  | .hbm, ⟨3, _⟩ => ⟨S21, .f32⟩
  | .hbm, ⟨4, _⟩ => ⟨S131072x21, .f32⟩
  | .hbm, ⟨5, _⟩ => ⟨S1x21, .f32⟩
  | .hbm, ⟨6, _⟩ => ⟨S131072x21, .f32⟩
  | .hbm, ⟨7, _⟩ => ⟨S131072x21, .f32⟩
  | .hbm, ⟨8, _⟩ => ⟨S131072x21, .f32⟩
  | .hbm, ⟨9, _⟩ => ⟨S_, .f32⟩
  | .hbm, ⟨10, _⟩ => ⟨S131072, .f32⟩
  | _, _ => ⟨S131072x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S21_S1x21_1 : S21.BroadcastsInDim S1x21 (![1] : Fin 1 → Fin S1x21.rank)
  bcast_S1x21_S131072x21_0_1 : S1x21.BroadcastsInDim S131072x21 (![0, 1] : Fin 2 → Fin S131072x21.rank)
  reducesTo_S131072x21_S131072_d1 : S131072x21.ReducesTo [1] S131072
  h_S_ : 0 < S_.numel
  dot_S131072x1024_S21x1024_S131072x21_1_1_0_0_n_n_wf : DotDims.WF S131072x1024 S21x1024 S131072x21 [1] [1] [0] [0] [] []

variable [Facts₀]

def dot_S131072x1024_S21x1024_S131072x21_1_1_0_0_n_n : DotDims S131072x1024 S21x1024 S131072x21 where
  lhsContracting := [1]
  rhsContracting := [1]
  lhsNonContracting := [0]
  rhsNonContracting := [0]
  lhsBatch := []
  rhsBatch := []
  wf := dot_S131072x1024_S21x1024_S131072x21_1_1_0_0_n_n_wf

class Facts : Prop extends Facts₀ where

variable [Facts]
-- ==== Proof.Spec.lean ====
/-
  Twenty-one linear heads scored on every row, and the rows' confidence-weighted totals.

  For a row `r` of the input `x` (1024 numbers), head `j` has the score
  `(∑ k, x r k · W j k) + b j`: the inner product of the row with the head's weight row, plus the head's bias.
  The second result weighs each head's score by the row's confidence `v r j` in that head and adds the 21 products.
  Both are stated here over the extended reals, index by index, as functions of the four argument arrays.
-/
import Idealize.ShloMosaic.Lib.ValueIdx
import Idealize.ShloMosaic.PureOps.Ideal.Laws

noncomputable section

namespace Cert.Heads

open Idealize.ShloMosaic Idealize.ShloMosaic.ValueIdx

/-- Head `j`'s score on row `r`: the row's inner product with the head's weights, plus the head's bias. -/
def score (x : FVec Ideal ⟨2, ![131072, 1024]⟩ .f32) (W : FVec Ideal ⟨2, ![21, 1024]⟩ .f32) (b : FVec Ideal ⟨1, ![21]⟩ .f32)
    (r : Fin 131072) (j : Fin 21) : EReal :=
  (∑ k : Fin 1024, x (ix2 r k) * W (ix2 j k)) + b (ix1 j)

/-- All scores, as the [131072, 21] array. -/
def scores (x : FVec Ideal ⟨2, ![131072, 1024]⟩ .f32) (W : FVec Ideal ⟨2, ![21, 1024]⟩ .f32) (b : FVec Ideal ⟨1, ![21]⟩ .f32) :
    FVec Ideal ⟨2, ![131072, 21]⟩ .f32 :=
  fun i => score x W b (i 0) (i 1)

/-- Row `r`'s total: each head's score times the row's confidence in that head, added over the heads. -/
def total (x : FVec Ideal ⟨2, ![131072, 1024]⟩ .f32) (v : FVec Ideal ⟨2, ![131072, 21]⟩ .f32) (W : FVec Ideal ⟨2, ![21, 1024]⟩ .f32)
    (b : FVec Ideal ⟨1, ![21]⟩ .f32) (r : Fin 131072) : EReal :=
  ∑ j : Fin 21, score x W b r j * v (ix2 r j)

/-- All totals, as the [131072] array. -/
def totals (x : FVec Ideal ⟨2, ![131072, 1024]⟩ .f32) (v : FVec Ideal ⟨2, ![131072, 21]⟩ .f32) (W : FVec Ideal ⟨2, ![21, 1024]⟩ .f32)
    (b : FVec Ideal ⟨1, ![21]⟩ .f32) : FVec Ideal ⟨1, ![131072]⟩ .f32 :=
  fun i => total x v W b (i 0)

theorem scores_apply (x : FVec Ideal ⟨2, ![131072, 1024]⟩ .f32) (W : FVec Ideal ⟨2, ![21, 1024]⟩ .f32) (b : FVec Ideal ⟨1, ![21]⟩ .f32)
    (r : Fin 131072) (j : Fin 21) : scores x W b (ix2 r j) = score x W b r j := rfl

theorem totals_apply (x : FVec Ideal ⟨2, ![131072, 1024]⟩ .f32) (v : FVec Ideal ⟨2, ![131072, 21]⟩ .f32) (W : FVec Ideal ⟨2, ![21, 1024]⟩ .f32)
    (b : FVec Ideal ⟨1, ![21]⟩ .f32) (r : Fin 131072) : totals x v W b (ix1 r) = total x v W b r := rfl

end Cert.Heads

end
-- ==== Proof.RefValue.lean ====
/-
  The host program's two results are the heads' scores and the rows' totals.

  The host computes the scores as one matrix product of `x` with `W`, both contracted on their 1024-long axis,
  plus the bias laid along every row; read at (r, j) this is `(∑ k, x r k · W j k) + b j`. Its second result adds,
  from an initial zero, the 21 products of a row's scores with the row's confidences.
-/
import proofs.«114885_j6373731467824_1_alg».proof.Proof.Gen.ReferenceIdeal.Read
import proofs.«114885_j6373731467824_1_alg».proof.Proof.Spec

noncomputable section

namespace Cert.Heads.Ref

open Cert.ReferenceIdeal Cert.ReferenceIdeal.Gen Cert.ReferenceIdeal.Read Idealize.ShloMosaic Idealize.ShloMosaic.ValueIdx

/-- The product's left operand is read at (row, k). -/
theorem lidx_eq (i : S131072x21.Idx) (k : Fin 1024) : lidx_main_v0 i k = ix2 (i 0) k :=
  funext fun a => Fin.ext (by match a with | ⟨0, _⟩ => rfl | ⟨1, _⟩ => rfl)

/-- Its right operand is read at (head, k). -/
theorem ridx_eq (i : S131072x21.Idx) (k : Fin 1024) : ridx_main_v0 i k = ix2 (i 1) k :=
  funext fun a => Fin.ext (by match a with | ⟨0, _⟩ => rfl | ⟨1, _⟩ => rfl)

/-- The bias, laid first along a one-row matrix and then down the rows, is read at the head. -/
theorem bidx_eq (i : S131072x21.Idx) : idx_main_v1 (idx_main_v2 i) = ix1 (i 1) :=
  funext fun a => Fin.ext (by match a with | ⟨0, _⟩ => rfl)

/-- The sum over the heads reads the products at (row, j). -/
theorem sidx_eq (i : S131072.Idx) (j : Fin 21) : idx_main_v5 i j = ix2 (i 0) j :=
  funext fun a => Fin.ext (by match a with | ⟨0, _⟩ => rfl | ⟨1, _⟩ => rfl)

/-- The host's product plus the bias is the scores array. -/
theorem scores_eq (x : FVec Ideal S131072x1024 .f32) (W : FVec Ideal S21x1024 .f32) (b : FVec Ideal S21 .f32) :
    val_main_v3 (F := Ideal) x W b = Cert.Heads.scores x W b := by
  funext i
  rw [val_main_v3_apply, val_main_v0_apply, val_main_v2_apply, val_main_v1_apply]
  simp only [lidx_eq, ridx_eq, bidx_eq]
  rfl

/-- The host's sum over the heads, from zero, is the totals array. -/
theorem totals_eq (x : FVec Ideal S131072x1024 .f32) (v : FVec Ideal S131072x21 .f32) (W : FVec Ideal S21x1024 .f32)
    (b : FVec Ideal S21 .f32) : val_main_v5 (F := Ideal) x v W b = Cert.Heads.totals x v W b := by
  funext i
  rw [val_main_v5_apply, val_main_cst_apply, Ideal.ofBits_def, Ideal.ofBits_zero_f32, zero_add]
  show (∑ j : Fin 21, val_main_v4 (F := Ideal) x v W b (idx_main_v5 i j))
      = ∑ j : Fin 21, Cert.Heads.score x W b (i 0) j * v (ix2 (i 0) j)
  refine Finset.sum_congr rfl fun j _ => ?_
  rw [val_main_v4_apply, scores_eq, sidx_eq]
  rfl

end Cert.Heads.Ref

end
-- ==== Proof.LibDense.lean ====
/-
  One dense layer with ReLU, row by row.

  For a row `h` of `K` numbers, a `K × N` weight matrix `W` and a bias row `b`, the layer's entry `j` is
  `max (∑ k, h k · W k j + b j) 0` on the extended reals. A rows-by-columns matrix product (no batch axis, the left
  operand contracted on its columns, the right on its rows) read at (r, j) is `∑ k, lhs (r, k) · rhs (k, j)`, whether
  it is accumulated into a zero array or has no accumulator; adding a bias row laid along every row and taking the
  maximum with zero then gives the layer of row `r`. Nothing here depends on the number of rows, so a product over
  a tile of rows and a product over all rows read the same way.
-/
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

namespace Cert.LibDense

open Idealize.ShloMosaic Idealize.ShloMosaic.ValueIdx

/-- One dense layer followed by ReLU on one row: entry `j` is `max (∑ k, h k · W k j + b j) 0`. -/
def dense {K N : ℕ} (h : Fin K → EReal) (W : Fin K → Fin N → EReal) (b : Fin N → EReal) (j : Fin N) : EReal :=
  max (∑ k : Fin K, h k * W k j + b j) 0

/-- The layer depends on its input row only through the row's entries. -/
theorem dense_congr {K N : ℕ} {h h' : Fin K → EReal} (e : ∀ k, h k = h' k) (W : Fin K → Fin N → EReal) (b : Fin N → EReal)
    (j : Fin N) : dense h W b j = dense h' W b j := by
  rw [show h = h' from funext e]

section Plain

variable {M K N : ℕ}

/-- The rows-by-columns product's left operand index keeps the result's row. -/
theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from fun h => nomatch h),
    dif_pos (show (0 : Fin (⟨2, ![M, K]⟩ : Shape).rank) ∈ (DotDims.plain M K N).lhsNonContracting from List.mem_singleton.mpr rfl)]
  rfl

/-- Its column is the contraction position. -/
theorem plain_lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- Its column is the result's column. -/
theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from fun h => nomatch h),
    dif_pos (show (1 : Fin (⟨2, ![K, N]⟩ : Shape).rank) ∈ (DotDims.plain M K N).rhsNonContracting from List.mem_singleton.mpr rfl)]
  rfl

/-- The sum over the product's contraction index, re-indexed by the contracted coordinate `k : Fin K`, with the
    operands read at (r, k) and (k, j). -/
theorem plain_sum {φ₁ φ₂ : FTy} (lhs : FVec Ideal ⟨2, ![M, K]⟩ φ₁) (rhs : FVec Ideal ⟨2, ![K, N]⟩ φ₂) (r : Fin M) (j : Fin N) :
    (∑ q : (DotDims.plain M K N).contr.Idx,
        lhs ((DotDims.plain M K N).lhsIdx (ix2 r j) q) * rhs ((DotDims.plain M K N).rhsIdx (ix2 r j) q))
      = ∑ k : Fin K, lhs (ix2 r k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun a => Fin.ext (by
      match a with
      | ⟨0, _⟩ => exact plain_lhs_row _ _
      | ⟨1, _⟩ => exact (plain_lhs_col _ _).trans hk)
  have er : (DotDims.plain M K N).rhsIdx (ix2 r j) ((contrEquiv1 (DotDims.plain M K N) K rfl rfl).symm k) = ix2 k j :=
    funext fun a => Fin.ext (by
      match a with
      | ⟨0, _⟩ => exact (plain_rhs_row _ _).trans hk
      | ⟨1, _⟩ => exact plain_rhs_col _ _)
  rw [el, er]

/-- A rows-by-columns product accumulated into a zero array, read at (r, j). -/
theorem matmul_plain_zero_apply {φ₁ φ₂ : FTy} (prec : Option ContractPrecision) (lhs : FVec Ideal ⟨2, ![M, K]⟩ φ₁)
    (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) := by
  rw [Ideal.matmul_constant_zero_apply]
  exact plain_sum lhs rhs r j

/-- The host's rows-by-columns product, read at (r, j). -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j) = ∑ k : Fin K, lhs (ix2 r k) * rhs (ix2 k j) := by
  rw [Ideal.dotGeneral_apply]
  exact plain_sum lhs rhs r j

end Plain

/-! ## The layer as a kernel and as a host program spell it -/

section Layers

variable {M K N : ℕ} {φ₁ φ₂ : FTy}

/-- A kernel's layer — the product into a zero accumulator, a one-row bias laid along every row, the maximum with a
    splat zero — read at (r, j), given the input's row `r`. The product's dimension numbers may be any record that
    IS the rows-by-columns one. -/
theorem kernel_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) (r : Fin M) (j : Fin N)
    (row : Fin K → EReal) (hrow : ∀ k, h (ix2 r k) = row k) :
    maximumf (addf (matmul d prec h W (constant (F := Ideal) ⟨2, ![M, N]⟩ .f32 0x00000000#32)) (broadcastTo ⟨2, ![M, N]⟩ b hb))
        (broadcast ⟨2, ![M, N]⟩ (Scalar.ofBits (F := Ideal) .f32 0x00000000#32)) (ix2 r j)
      = dense row (fun k j => W (ix2 k j)) (fun j => b (ix2 (0 : Fin 1) j)) j := by
  subst hd
  show max (FloatOps.matmul (DotDims.plain M K N) prec h W (constant ⟨2, ![M, N]⟩ .f32 0x00000000#32) (ix2 r j)
      + broadcastTo ⟨2, ![M, N]⟩ b hb (ix2 r j)) (Ideal.ofBits .f32 0x00000000#32) = _
  rw [matmul_plain_zero_apply, broadcastTo_1b_ab_apply, Ideal.ofBits_zero_f32]
  unfold dense
  simp only [hrow]

/-- A host program's layer — the product, a bias vector laid along axis 1 of a one-row matrix and that row down the
    rows, the maximum with a broadcast zero — read at (e, j), given the input's row `e`. -/
theorem host_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (e : Fin M) (j : Fin N)
    (row : Fin K → EReal) (hrow : ∀ k, h (ix2 e k) = row k) :
    maximumf (addf (Host.dotGeneral d prec h W)
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 e j)
      = dense row (fun k j => W (ix2 k j)) (fun j => b (ix1 j)) j := by
  subst hd
  have e2 := broadcastInDim_oneRow_apply h2 (broadcastInDim ⟨2, ![1, N]⟩ ![1] h1 b) e j
  have e1 := broadcastInDim_apply ![1] h1 b (ix2 (0 : Fin 1) j) (ix1 j) (fun a => by
    match a with
    | ⟨0, _⟩ =>
      show j.val = if N = 1 then 0 else j.val
      split
      · have := j.isLt; omega
      · rfl)
  have e0 := broadcastInDim_apply ![] h0 (constant (F := Ideal) ⟨0, ![]⟩ .f32 0x00000000#32) (ix2 e j) (fun a => a.elim0)
    (fun a => a.elim0)
  show max (FloatOps.dotGeneral (DotDims.plain M K N) prec .single h W (ix2 e j)
      + broadcastInDim ⟨2, ![M, N]⟩ ![0, 1] h2 (broadcastInDim ⟨2, ![1, N]⟩ ![1] h1 b) (ix2 e j))
      (broadcastInDim ⟨2, ![M, N]⟩ ![] h0 (constant (F := Ideal) ⟨0, ![]⟩ .f32 0x00000000#32) (ix2 e j)) = _
  rw [dotGeneral_plain_apply, e2, e1, e0]
  show max _ (Ideal.ofBits .f32 0x00000000#32) = _
  rw [Ideal.ofBits_zero_f32]
  unfold dense
  simp only [hrow]

end Layers

end Cert.LibDense

end
-- ==== Proof.Body.lean ====
/-
  What one tile of 2048 rows computes.

  The body multiplies the tile of `x` (2048 × 1024) by the transposed weights (1024 × 21) into a zero array, adds
  the one-row bias along every row, and stores that as the tile's scores; it then multiplies the scores by the
  tile of confidences entry by entry and adds along the 21 heads. A change of float format is the identity on
  the extended reals, so at (p, q) the stored score is `(∑ k, xt p k · wt k q) + bt 0 q`, and at p the stored total
  is the sum over q of that score times the confidence at (p, q).
-/
import proofs.«114885_j6373731467824_1_alg».proof.Proof.Gen.KernelIdeal.Skeleton
import proofs.«114885_j6373731467824_1_alg».proof.Proof.LibDense
import proofs.«114885_j6373731467824_1_alg».proof.Proof.Spec
import Idealize.ShloMosaic.Lib.Pipeline.Value
import Idealize.ShloMosaic.Lib.ValueLayout

noncomputable section

namespace Cert.Heads.Body

open Cert.KernelIdeal Cert.KernelIdeal.Gen Idealize.ShloMosaic Idealize.ShloMosaic.ValueIdx

/-- The body's product is the rows-by-columns one. -/
theorem dot_plain : dot_S2048x1024_S1024x21_S2048x21_1_0_0_1_n_n = DotDims.plain 2048 1024 21 := rfl

/-- The tile's score at (p, q): row p of the tile of `x` against column q of the transposed weights, plus the bias. -/
theorem tile_score (xt : Vec Ideal S2048x1024 .f32) (wt : Vec Ideal S1024x21 .bf16) (bt : Vec Ideal S1x21 .f32)
    (p : Fin 2048) (q : Fin 21) :
    k0_pay1 (F := Ideal) xt wt bt (ix2 p q) = (∑ k : Fin 1024, xt (ix2 p k) * wt (ix2 k q)) + bt (ix2 (0 : Fin 1) q) := by
  unfold k0_pay1
  rw [shapeCast_self, shapeCast_self, dot_plain, addf_apply]
  simp only [matmul]
  rw [Cert.LibDense.matmul_plain_zero_apply, broadcastTo_1b_ab_apply]
  rfl

/-- The lane sum's inserted index is (p, q). -/
theorem lift_eq (p : Fin 2048) (q : Fin 21) :
    reduces_S2048x21_S2048.lift (ix1 p) q = ix2 p q :=
  funext fun a => Fin.ext (by match a with | ⟨0, _⟩ => rfl | ⟨1, _⟩ => rfl)

/-- The tile's total at p: the scores of row p times the row's confidences, added over the 21 heads. -/
theorem tile_total (xt : Vec Ideal S2048x1024 .f32) (wt : Vec Ideal S1024x21 .bf16) (bt : Vec Ideal S1x21 .f32)
    (vt : Vec Ideal S2048x21 .f32) (p : Fin 2048) :
    k0_pay2 (F := Ideal) xt wt bt vt (ix1 p)
      = ∑ q : Fin 21, ((∑ k : Fin 1024, xt (ix2 p k) * wt (ix2 k q)) + bt (ix2 (0 : Fin 1) q)) * vt (ix2 p q) := by
  refine (Ideal.multiReduction_add_single (a := 1) (mulf (k0_pay1 (F := Ideal) xt wt bt) vt) 0x00000000#32
    reduces_S2048x21_S2048 (.inl rfl) rfl (ix1 p)).trans ?_
  show (∑ q : Fin 21, mulf (k0_pay1 (F := Ideal) xt wt bt) vt (reduces_S2048x21_S2048.lift (ix1 p) q)) = _
  refine Finset.sum_congr rfl fun q _ => ?_
  rw [lift_eq p q]
  show k0_pay1 (F := Ideal) xt wt bt (ix2 p q) * vt (ix2 p q) = _
  rw [tile_score]

/-- A tile's score is the array's score, whenever the tile's row of `x` is row `i 0` of `x`, the tile's weights are
    the transposed weights and its bias row is the bias. -/
theorem score_of_tile (x : FVec Ideal ⟨2, ![131072, 1024]⟩ .f32) (W : FVec Ideal ⟨2, ![21, 1024]⟩ .f32) (b : FVec Ideal ⟨1, ![21]⟩ .f32)
    (xt : Vec Ideal S2048x1024 .f32) (wt : Vec Ideal S1024x21 .bf16) (bt : Vec Ideal S1x21 .f32)
    (y : S2048x21.Idx) (i : S131072x21.Idx)
    (hx : ∀ k : Fin 1024, xt (ix2 (y 0) k) = x (ix2 (i 0) k))
    (hw : ∀ k : Fin 1024, wt (ix2 k (y 1)) = W (ix2 (i 1) k))
    (hb : bt (ix2 (0 : Fin 1) (y 1)) = b (ix1 (i 1))) :
    k0_pay1 (F := Ideal) xt wt bt y = Cert.Heads.scores x W b i := by
  obtain ⟨p, q, rfl⟩ : ∃ (p : Fin 2048) (q : Fin 21), y = ix2 p q := ⟨y 0, y 1, eq_ix2 y⟩
  rw [tile_score]
  show _ = (∑ k : Fin 1024, x (ix2 (i 0) k) * W (ix2 (i 1) k)) + b (ix1 (i 1))
  rw [← hb]
  exact congrArg (· + bt (ix2 (0 : Fin 1) q)) (Finset.sum_congr rfl fun k _ => by rw [← hx k, ← hw k])

/-- A tile's total is the array's total, under the same readings and with the tile's confidences those of row `i 0`. -/
theorem total_of_tile (x : FVec Ideal ⟨2, ![131072, 1024]⟩ .f32) (v : FVec Ideal ⟨2, ![131072, 21]⟩ .f32)
    (W : FVec Ideal ⟨2, ![21, 1024]⟩ .f32) (b : FVec Ideal ⟨1, ![21]⟩ .f32)
    (xt : Vec Ideal S2048x1024 .f32) (wt : Vec Ideal S1024x21 .bf16) (bt : Vec Ideal S1x21 .f32) (vt : Vec Ideal S2048x21 .f32)
    (y : S2048.Idx) (i : S131072.Idx)
    (hx : ∀ k : Fin 1024, xt (ix2 (y 0) k) = x (ix2 (i 0) k))
    (hw : ∀ (q : Fin 21) (k : Fin 1024), wt (ix2 k q) = W (ix2 q k))
    (hb : ∀ q : Fin 21, bt (ix2 (0 : Fin 1) q) = b (ix1 q))
    (hv : ∀ q : Fin 21, vt (ix2 (y 0) q) = v (ix2 (i 0) q)) :
    k0_pay2 (F := Ideal) xt wt bt vt y = Cert.Heads.totals x v W b i := by
  obtain ⟨p, rfl⟩ : ∃ p : Fin 2048, y = ix1 p := ⟨y 0, eq_ix1 y⟩
  rw [tile_total]
  show _ = ∑ q : Fin 21, ((∑ k : Fin 1024, x (ix2 (i 0) k) * W (ix2 q k)) + b (ix1 q)) * v (ix2 (i 0) q)
  refine Finset.sum_congr rfl fun q _ => ?_
  rw [← hb q, ← hv q]
  exact congrArg (fun s => (s + bt (ix2 (0 : Fin 1) q)) * vt (ix2 p q))
    (Finset.sum_congr rfl fun k _ => by rw [← hx k, ← hw q k])

end Cert.Heads.Body

end
-- ==== Proof.Entry.lean ====
/-
  What the kernel region finds in the two arrays the host prepares for it.

  Before the region the host transposes the weights `W` (21 × 1024) to 1024 × 21 and changes their float format,
  which is the identity on the extended reals: the region's weight operand at (k, q) is `W` at (q, k). It also
  recasts the bias vector as a one-row matrix: the region's bias operand at (0, q) is `b` at q.
-/
import proofs.«114885_j6373731467824_1_alg».proof.Proof.Gen.KernelIdeal.Frame
import Idealize.ShloMosaic.Lib.StableHlo.Run
import Idealize.ShloMosaic.Lib.ValueLayout
import Idealize.ShloMosaic.Lib.ValueIdx

noncomputable section

namespace Cert.Heads.Entry

open Cert.KernelIdeal Cert.KernelIdeal.Gen Idealize.ShloMosaic Idealize.ShloMosaic.TcCoe Idealize.ShloMosaic.ValueIdx
open Idealize.ShloMosaic.StableHlo Idealize.SL.Sem

variable (m : (ℓ : Loc nD τ sig) → Buf (Elt Ideal) ℓ)

/-- The region's weight operand is the transposed weights, their format changed. -/
theorem weights_entry (c : Dev nD) :
    (V m c main_v1 : S1024x21.Idx → EReal)
      = (truncf (F := Ideal) .bf16 (transpose S1024x21 [1, 0] (m ((c : Thread nD τ).loc main_arg2) : S21x1024.Idx → EReal)
          transposes_S21x1024_S1024x21_1_0) bitsLt_bf16_f32 : S1024x21.Idx → EReal) := by
  dsimp only [V, hostOps0]; after_results

/-- At (k, q) it holds `W` at (q, k). -/
theorem weights_entry_apply (c : Dev nD) (k : Fin 1024) (q : Fin 21) :
    (V m c main_v1 : S1024x21.Idx → EReal) (ix2 k q)
      = (m ((c : Thread nD τ).loc main_arg2) : S21x1024.Idx → EReal) (ix2 q k) := by
  rw [weights_entry]
  exact transpose_ix2_apply (m ((c : Thread nD τ).loc main_arg2) : S21x1024.Idx → EReal) transposes_S21x1024_S1024x21_1_0 k q

/-- The region's bias operand is the bias vector recast as one row. -/
theorem bias_entry (c : Dev nD) :
    (V m c main_v2 : S1x21.Idx → EReal)
      = (shapeCast S1x21 (m ((c : Thread nD τ).loc main_arg3) : S21.Idx → EReal) shapeCasts_S21_S1x21 : S1x21.Idx → EReal) := by
  dsimp only [V, hostOps0]; after_results; rfl

/-- At (0, q) it holds `b` at q. -/
theorem bias_entry_apply (c : Dev nD) (q : Fin 21) :
    (V m c main_v2 : S1x21.Idx → EReal) (ix2 (0 : Fin 1) q)
      = (m ((c : Thread nD τ).loc main_arg3) : S21.Idx → EReal) (ix1 q) := by
  rw [bias_entry]
  exact shapeCast_a_1a_apply (m ((c : Thread nD τ).loc main_arg3) : S21.Idx → EReal) shapeCasts_S21_S1x21 0 q

end Cert.Heads.Entry

end
-- ==== Proof.Tiles.lean ====
/-
  From tiles to arrays.

  The grid has 64 points; point `t` works on rows `2048·t … 2048·t + 2047`: its tile of `x` and of the confidences
  are those rows, its weight and bias operands are always the whole prepared arrays, and it writes back rows
  `2048·t …` of both results. What it writes is the tile of the scores array, and of the totals array, at those rows;
  the 64 tiles cover all 131072 rows, so after the run the two result arrays are the scores and the totals.
-/
import proofs.«114885_j6373731467824_1_alg».proof.Proof.Gen.KernelIdeal.Value
import proofs.«114885_j6373731467824_1_alg».proof.Proof.Spec
import proofs.«114885_j6373731467824_1_alg».proof.Proof.Body
import proofs.«114885_j6373731467824_1_alg».proof.Proof.Entry
import Idealize.ShloMosaic.Lib.Pipeline.Value

noncomputable section

namespace Cert.Heads.Tiles

open Cert.KernelIdeal Cert.KernelIdeal.Gen Cert.KernelIdeal.Value Idealize.ShloMosaic Idealize.ShloMosaic.TcCoe
open Idealize.ShloMosaic.ValueIdx Idealize.SL.Sem
open Idealize.ShloMosaic.Pipeline (Dat)

variable (m : (ℓ : Loc nD τ sig) → Buf (Elt Ideal) ℓ) (ρ : Dev nD → PrngReg)

/-! ## Names for the four argument arrays and for a point's four input tiles -/

abbrev xarr (c : Dev nD) : FVec Ideal S131072x1024 .f32 := m ((c : Thread nD τ).loc main_arg0)
abbrev varr (c : Dev nD) : FVec Ideal S131072x21 .f32 := m ((c : Thread nD τ).loc main_arg1)
abbrev warr (c : Dev nD) : FVec Ideal S21x1024 .f32 := m ((c : Thread nD τ).loc main_arg2)
abbrev barr (c : Dev nD) : FVec Ideal S21 .f32 := m ((c : Thread nD τ).loc main_arg3)

abbrev xblk (c : Dev nD) (t : Fin cfg0.N) : Vec Ideal S2048x1024 .f32 := iblk m c 0 t
abbrev wblk (c : Dev nD) (t : Fin cfg0.N) : Vec Ideal S1024x21 .bf16 := iblk m c 1 t
abbrev bblk (c : Dev nD) (t : Fin cfg0.N) : Vec Ideal S1x21 .f32 := iblk m c 2 t
abbrev vblk (c : Dev nD) (t : Fin cfg0.N) : Vec Ideal S2048x21 .f32 := iblk m c 3 t

theorem hz2 : (![0, 0] : Fin 2 → Nat) = fun _ => 0 := funext fun a => by fin_cases a <;> rfl
theorem hz1 : (![0] : Fin 1 → Nat) = fun _ => 0 := funext fun a => by fin_cases a <;> rfl

/-- The index maps over the 64 points: the row tiles (of `x`, of the confidences, of both results) are tile `t` at
    point `t`; the weight and bias operands are always block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 1) = t.val
    ∧ win0_5.index t (0 : Fin 2) = t.val ∧ win0_5.index t (1 : Fin 2) = 0 :=
  (by decide +kernel : ∀ t : Fin grid0.N, _)

/-! ## The input tiles read off the arrays -/

/-- Point `t`'s tile of `x` at (p, k) is `x` at (2048·t + p, k). -/
theorem xblk_apply (c : Dev nD) (t : Fin cfg0.N) (y : S2048x1024.Idx) (i : S131072x1024.Idx)
    (h0 : (i 0).val = t.val * 2048 + (y 0).val) (h1 : (i 1).val = (y 1).val) :
    xblk m c t y = xarr m c i := by
  obtain ⟨e0, e1, -⟩ := idx_facts t
  show iblk m c 0 t y = _
  unfold iblk
  rw [View.read_apply]
  show V m c main_arg0 (((cfg0.win 0).blk t).view.emb y) = _
  rw [V_main_arg0]
  refine congrArg (m ((c : Thread nD τ).loc main_arg0)) (funext fun a => Fin.ext ?_)
  match a with
  | ⟨0, _⟩ => show win0_0.index t (0 : Fin 2) * 2048 + 1 * (y 0).val = (i 0).val; omega
  | ⟨1, _⟩ => show win0_0.index t (1 : Fin 2) * 1024 + 1 * (y 1).val = (i 1).val; omega

/-- Point `t`'s tile of the confidences at (p, q) is the confidences at (2048·t + p, q). -/
theorem vblk_apply (c : Dev nD) (t : Fin cfg0.N) (y : S2048x21.Idx) (i : S131072x21.Idx)
    (h0 : (i 0).val = t.val * 2048 + (y 0).val) (h1 : (i 1).val = (y 1).val) :
    vblk m c t y = varr m c i := by
  obtain ⟨-, -, -, -, -, -, e0, e1, -⟩ := idx_facts t
  show iblk m c 3 t y = _
  unfold iblk
  rw [View.read_apply]
  show V m c main_arg1 (((cfg0.win 3).blk t).view.emb y) = _
  rw [V_main_arg1]
  refine congrArg (m ((c : Thread nD τ).loc main_arg1)) (funext fun a => Fin.ext ?_)
  match a with
  | ⟨0, _⟩ => show win0_3.index t (0 : Fin 2) * 2048 + 1 * (y 0).val = (i 0).val; omega
  | ⟨1, _⟩ => show win0_3.index t (1 : Fin 2) * 21 + 1 * (y 1).val = (i 1).val; omega

/-- Every point's weight operand at (k, q) is `W` at (q, k). -/
theorem wblk_apply (c : Dev nD) (t : Fin cfg0.N) (k : Fin 1024) (q : Fin 21) :
    wblk m c t (ix2 k q) = warr m c (ix2 q k) := by
  obtain ⟨-, -, e0, e1, -⟩ := idx_facts t
  show iblk m c 1 t (ix2 k q) = _
  unfold iblk
  rw [View.read_apply]
  show (V m c main_v1 : S1024x21.Idx → EReal) (((cfg0.win 1).blk t).view.emb (ix2 k q)) = _
  rw [show ((cfg0.win 1).blk t).view.emb (ix2 k q) = ix2 k q from funext fun a => Fin.ext (by
    match a with
    | ⟨0, _⟩ => show win0_1.index t (0 : Fin 2) * 1024 + 1 * k.val = k.val; omega
    | ⟨1, _⟩ => show win0_1.index t (1 : Fin 2) * 21 + 1 * q.val = q.val; omega)]
  exact Cert.Heads.Entry.weights_entry_apply m c k q

/-- Every point's bias operand at (0, q) is `b` at q. -/
theorem bblk_apply (c : Dev nD) (t : Fin cfg0.N) (q : Fin 21) :
    bblk m c t (ix2 (0 : Fin 1) q) = barr m c (ix1 q) := by
  obtain ⟨-, -, -, -, e0, e1, -⟩ := idx_facts t
  show iblk m c 2 t (ix2 (0 : Fin 1) q) = _
  unfold iblk
  rw [View.read_apply]
  show (V m c main_v2 : S1x21.Idx → EReal) (((cfg0.win 2).blk t).view.emb (ix2 (0 : Fin 1) q)) = _
  rw [show ((cfg0.win 2).blk t).view.emb (ix2 (0 : Fin 1) q) = ix2 (0 : Fin 1) q from funext fun a => Fin.ext (by
    match a with
    | ⟨0, _⟩ => show win0_2.index t (0 : Fin 2) * 1 + 1 * 0 = 0; omega
    | ⟨1, _⟩ => show win0_2.index t (1 : Fin 2) * 21 + 1 * q.val = q.val; omega)]
  exact Cert.Heads.Entry.bias_entry_apply m c q

/-! ## What each point writes back -/

/-- Point `t` writes back tile `t` of the scores array. -/
theorem flushed_scores (c : Dev nD) (t : Fin cfg0.N) :
    (dats m 0 c).flushed 5 t
      = ((cfg0.win 5).blk t).view.read (Elt Ideal) (Cert.Heads.scores (xarr m c) (warr m c) (barr m c)) := by
  obtain ⟨-, -, -, -, -, -, -, -, -, e0, e1⟩ := idx_facts t
  rw [flushed5]
  unfold out0_5
  rw [View.canon_unit_zero hz2]
  simp only [View.ld_unit_zero (S := S2048x1024) hz2, View.ld_unit_zero (S := S1024x21) hz2, View.ld_unit_zero (S := S1x21) hz2]
  funext y
  show k0_pay1 (F := Ideal) (xblk m c t) (wblk m c t) (bblk m c t) y
    = Cert.Heads.scores (xarr m c) (warr m c) (barr m c) (((cfg0.win 5).blk t).view.emb y)
  have r0 : ((((cfg0.win 5).blk t).view.emb y) 0).val = t.val * 2048 + (y 0).val := by
    show win0_5.index t (0 : Fin 2) * 2048 + 1 * (y 0).val = _; omega
  have r1 : ((((cfg0.win 5).blk t).view.emb y) 1).val = (y 1).val := by
    show win0_5.index t (1 : Fin 2) * 21 + 1 * (y 1).val = _; omega
  have q1 : (((cfg0.win 5).blk t).view.emb y) 1 = y 1 := Fin.ext r1
  refine Cert.Heads.Body.score_of_tile (xarr m c) (warr m c) (barr m c) (xblk m c t) (wblk m c t) (bblk m c t) y
    (((cfg0.win 5).blk t).view.emb y) (fun k => ?_) (fun k => ?_) ?_
  · exact xblk_apply m c t (ix2 (y 0) k) (ix2 ((((cfg0.win 5).blk t).view.emb y) 0) k) r0 rfl
  · rw [q1]; exact wblk_apply m c t k (y 1)
  · rw [q1]; exact bblk_apply m c t (y 1)

/-- Point `t` writes back tile `t` of the totals array. -/
theorem flushed_totals (c : Dev nD) (t : Fin cfg0.N) :
    (dats m 0 c).flushed 4 t
      = ((cfg0.win 4).blk t).view.read (Elt Ideal) (Cert.Heads.totals (xarr m c) (varr m c) (warr m c) (barr m c)) := by
  obtain ⟨-, -, -, -, -, -, -, -, e0, -⟩ := idx_facts t
  rw [flushed4]
  unfold out0_4
  rw [View.canon_unit_zero hz1]
  simp only [View.ld_unit_zero (S := S2048x1024) hz2, View.ld_unit_zero (S := S1024x21) hz2, View.ld_unit_zero (S := S1x21) hz2,
    View.ld_unit_zero (S := S2048x21) hz2]
  funext y
  show k0_pay2 (F := Ideal) (xblk m c t) (wblk m c t) (bblk m c t) (vblk m c t) y
    = Cert.Heads.totals (xarr m c) (varr m c) (warr m c) (barr m c) (((cfg0.win 4).blk t).view.emb y)
  have r0 : ((((cfg0.win 4).blk t).view.emb y) 0).val = t.val * 2048 + (y 0).val := by
    show win0_4.index t (0 : Fin 1) * 2048 + 1 * (y 0).val = _; omega
  refine Cert.Heads.Body.total_of_tile (xarr m c) (varr m c) (warr m c) (barr m c) (xblk m c t) (wblk m c t) (bblk m c t)
    (vblk m c t) y (((cfg0.win 4).blk t).view.emb y) (fun k => ?_) (fun q k => ?_) (fun q => ?_) (fun q => ?_)
  · exact xblk_apply m c t (ix2 (y 0) k) (ix2 ((((cfg0.win 4).blk t).view.emb y) 0) k) r0 rfl
  · exact wblk_apply m c t k q
  · exact bblk_apply m c t q
  · exact vblk_apply m c t (ix2 (y 0) q) (ix2 ((((cfg0.win 4).blk t).view.emb y) 0) q) r0 rfl

/-! ## The tiles cover the arrays -/

/-- An index of the scores array is in point `t`'s tile iff each coordinate is in the tile's range. -/
theorem mem_tile5 (t : Fin cfg0.N) (i : S131072x21.Idx) :
    i ∈ ((cfg0.win 5).blk t).view.set ↔ ∀ a : Fin 2, win0_5.index t a * S2048x21.size a ≤ (i a).val
      ∧ (i a).val < win0_5.index t a * S2048x21.size a + S2048x21.size a := by
  show i ∈ ((View.whole main_v3_1).slice (win0_5.rect t)).set ↔ _
  rw [View.set_slice_whole, Rect.mem_set_unit]
  exact Iff.rfl

/-- An index of the totals array is in point `t`'s tile iff its coordinate is in the tile's range. -/
theorem mem_tile4 (t : Fin cfg0.N) (i : S131072.Idx) :
    i ∈ ((cfg0.win 4).blk t).view.set ↔ ∀ a : Fin 1, win0_4.index t a * S2048.size a ≤ (i a).val
      ∧ (i a).val < win0_4.index t a * S2048.size a + S2048.size a := by
  show i ∈ ((View.whole main_v3_0).slice (win0_4.rect t)).set ↔ _
  rw [View.set_slice_whole, Rect.mem_set_unit]
  exact Iff.rfl

/-- Row `r` is in the tile of point `r / 2048`. -/
theorem cover5 (i : S131072x21.Idx) :
    ∃ t : Fin cfg0.N, (cfg0.win 5).flush t = true ∧ i ∈ ((cfg0.win 5).blk t).view.set := by
  have h0 : (i 0).val < 131072 := (i 0).isLt
  have h1 : (i 1).val < 21 := (i 1).isLt
  obtain ⟨t, ht⟩ : ∃ t : Fin cfg0.N, t.val = (i 0).val / 2048 :=
    ⟨⟨(i 0).val / 2048, by rw [show cfg0.N = 64 from N_0]; omega⟩, rfl⟩
  obtain ⟨-, -, -, -, -, -, -, -, -, e0, e1⟩ := idx_facts t
  refine ⟨t, flush0_5 t, ?_⟩
  rw [mem_tile5]
  intro a
  match a with
  | ⟨0, _⟩ =>
    show win0_5.index t (0 : Fin 2) * 2048 ≤ (i 0).val ∧ (i 0).val < win0_5.index t (0 : Fin 2) * 2048 + 2048
    omega
  | ⟨1, _⟩ =>
    show win0_5.index t (1 : Fin 2) * 21 ≤ (i 1).val ∧ (i 1).val < win0_5.index t (1 : Fin 2) * 21 + 21
    omega

theorem cover4 (i : S131072.Idx) :
    ∃ t : Fin cfg0.N, (cfg0.win 4).flush t = true ∧ i ∈ ((cfg0.win 4).blk t).view.set := by
  have h0 : (i 0).val < 131072 := (i 0).isLt
  obtain ⟨t, ht⟩ : ∃ t : Fin cfg0.N, t.val = (i 0).val / 2048 :=
    ⟨⟨(i 0).val / 2048, by rw [show cfg0.N = 64 from N_0]; omega⟩, rfl⟩
  obtain ⟨-, -, -, -, -, -, -, -, e0, -⟩ := idx_facts t
  refine ⟨t, flush0_4 t, ?_⟩
  rw [mem_tile4]
  intro a
  match a with
  | ⟨0, _⟩ =>
    show win0_4.index t (0 : Fin 1) * 2048 ≤ (i 0).val ∧ (i 0).val < win0_4.index t (0 : Fin 1) * 2048 + 2048
    omega

/-! ## The arrays after the run -/

/-- The second result array ends holding the scores. -/
theorem final_scores (c : Dev nD) :
    (dats m 0 c).arrAt 5 cfg0.N = Cert.Heads.scores (xarr m c) (warr m c) (barr m c) :=
  (dats m 0 c).arrAt_eq_of_cover 5 (Cert.Heads.scores (xarr m c) (warr m c) (barr m c))
    (fun t _ => flushed_scores m c t) cover5

/-- The first result array ends holding the totals. -/
theorem final_totals (c : Dev nD) :
    (dats m 0 c).arrAt 4 cfg0.N = Cert.Heads.totals (xarr m c) (varr m c) (warr m c) (barr m c) :=
  (dats m 0 c).arrAt_eq_of_cover 4 (Cert.Heads.totals (xarr m c) (varr m c) (warr m c) (barr m c))
    (fun t _ => flushed_totals m c t) cover4

/-- The kernel's run: both results at their functions of the arguments, the arguments unchanged. -/
theorem run : θ_run defs (onTc (τ := τ) (main (F := Ideal))) ⟨m, fun _ => 0, ρ⟩ fun r => ∀ c : Dev nD,
      r.2.mem ((c : Thread nD τ).loc main_v3_0) = Cert.Heads.totals (xarr m c) (varr m c) (warr m c) (barr m c)
      ∧ r.2.mem ((c : Thread nD τ).loc main_v3_1) = Cert.Heads.scores (xarr m c) (warr m c) (barr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_totals m c), (h c).2.1.trans (final_scores m c), (h c).2.2⟩)
    (run_blocks m ρ)

end Cert.Heads.Tiles

end
-- ==== Proof.lean ====
/-
  Twenty-one linear heads over 131072 rows, tiled by 2048 rows, against one matrix product on the host.

  Both programs return, for every row `r` of `x`, the 21 scores `(∑ k, x r k · W j k) + b j` and the total
  `∑ j, score r j · v r j`. The kernel works tile by tile: it transposes the weights once on the host, and each of its
  64 grid points multiplies a 2048-row tile of `x` by the transposed weights, adds the bias row, stores the tile's
  scores, multiplies them by the tile's confidences and adds along the heads. The host program contracts `x` with `W`
  on their common 1024-long axis, adds the bias broadcast down the rows, and sums the products with the confidences from
  an initial zero. On the extended reals a change of float format is the identity, a product into a zero accumulator
  is the plain sum of products, and `0 + s = s`; no other law is needed, so the input's finiteness is never used:
  the two programs compute the same two functions of the arguments, index by index. The three frames are the
  generated runs; the idealized kernel is the kernel's own text, so nothing is owed for the idealization.
-/
import proofs.«114885_j6373731467824_1_alg».proof.Defs
import proofs.«114885_j6373731467824_1_alg».proof.Proof.Gen.Kernel
import proofs.«114885_j6373731467824_1_alg».proof.Proof.Gen.Kernel.Skeleton
import proofs.«114885_j6373731467824_1_alg».proof.Proof.Gen.Kernel.Launch
import proofs.«114885_j6373731467824_1_alg».proof.Proof.Gen.Kernel.Points
import proofs.«114885_j6373731467824_1_alg».proof.Proof.Gen.Kernel.Frame
import proofs.«114885_j6373731467824_1_alg».proof.Proof.Gen.KernelIdeal
import proofs.«114885_j6373731467824_1_alg».proof.Proof.Gen.KernelIdeal.Skeleton
import proofs.«114885_j6373731467824_1_alg».proof.Proof.Gen.KernelIdeal.Launch
import proofs.«114885_j6373731467824_1_alg».proof.Proof.Gen.KernelIdeal.Points
import proofs.«114885_j6373731467824_1_alg».proof.Proof.Gen.KernelIdeal.Frame
import proofs.«114885_j6373731467824_1_alg».proof.Proof.Gen.ReferenceIdeal
import proofs.«114885_j6373731467824_1_alg».proof.Proof.Gen.Pre_finite_inputs
import proofs.«114885_j6373731467824_1_alg».proof.Proof.Gen.KernelIdeal.Value
import proofs.«114885_j6373731467824_1_alg».proof.Proof.Gen.ReferenceIdeal.Run
import proofs.«114885_j6373731467824_1_alg».proof.Proof.Gen.ReferenceIdeal.Read
import proofs.«114885_j6373731467824_1_alg».proof.Proof.RefValue
import proofs.«114885_j6373731467824_1_alg».proof.Proof.Tiles
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The host program's run, with its two results forgotten. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From arguments that agree, the kernel ends with the totals and the scores of its arguments in its two result arrays,
    and the host program with the same two functions of its own: equal results, element by element. -/
theorem algebraic : Cert.algebraic_KernelIdeal_ReferenceIdeal := by
  intro m ρ m' ρ' _ hagree
  refine ⟨fun c => Cert.Heads.totals (Cert.Heads.Tiles.xarr m c) (Cert.Heads.Tiles.varr m c) (Cert.Heads.Tiles.warr m c)
      (Cert.Heads.Tiles.barr m c),
    fun c => Cert.Heads.scores (Cert.Heads.Tiles.xarr m c) (Cert.Heads.Tiles.warr m c) (Cert.Heads.Tiles.barr m c),
    Cert.Heads.Tiles.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2.1, (hagree c).2.2.2]
    exact (Cert.ReferenceIdeal.Read.val_main_v5_eq _ _ _ _).trans (Cert.Heads.Ref.totals_eq _ _ _ _)
  · rw [(hagree c).1, (hagree c).2.2.1, (hagree c).2.2.2]
    exact (Cert.ReferenceIdeal.Read.val_main_v3_eq _ _ _).trans (Cert.Heads.Ref.scores_eq _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
